-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S10x50 : Shape := ⟨2, ![10, 50]⟩
abbrev S50 : Shape := ⟨1, ![50]⟩
abbrev S50x50 : Shape := ⟨2, ![50, 50]⟩
abbrev S50x1 : Shape := ⟨2, ![50, 1]⟩
abbrev S1 : Shape := ⟨1, ![1]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S10x50 : S_.BroadcastsInDim S10x50 (![] : Fin 0 → Fin S10x50.rank)
  reducesTo_S10x50_S_d0_1 : S10x50.ReducesTo [0, 1] S_
  bcast_S_S50 : S_.BroadcastsInDim S50 (![] : Fin 0 → Fin S50.rank)
  reducesTo_S50_S_d0 : S50.ReducesTo [0] S_
  bcast_S_S50x50 : S_.BroadcastsInDim S50x50 (![] : Fin 0 → Fin S50x50.rank)
  reducesTo_S50x50_S_d0_1 : S50x50.ReducesTo [0, 1] S_
  bcast_S_S50x1 : S_.BroadcastsInDim S50x1 (![] : Fin 0 → Fin S50x1.rank)
  reducesTo_S50x1_S_d0_1 : S50x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S50 .f32) (main_arg6 : FVec F S50x1 .f32) (main_arg7 : FVec F S1 .f32) (main_v13 : IVec S_ 1) (main_v16 : IVec S50x50 1) : IVec S_ 1 :=
  let main_c_5 : IVec S_ 1 := constantI S_ 1 1#1
  let main_v17 : IVec S_ 1 := (fun x v => Host.reduce IntOp.andi x v reducesTo_S50x50_S_d0_1 h_S_) main_v16 main_c_5
  let main_v18 : IVec S_ 1 := andi main_v13 main_v17
  let main_v19 : FVec F S50 .f32 := Host.absf main_arg5
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50x1 .f32 := Host.absf main_arg6
  let main_cst_8 : FVec F S_ .f32 := constant S_ .f32 0x7F800000#32
  let main_v25 : FVec F S50x1 .f32 := broadcastInDim S50x1 ![] bcast_S_S50x1 main_cst_8
  let main_v26 : IVec S50x1 1 := cmpf .olt main_v24 main_v25
  let main_c_9 : IVec S_ 1 := constantI S_ 1 1#1
  let main_v27 : IVec S_ 1 := (fun x v => Host.reduce IntOp.andi x v reducesTo_S50x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x5 .f32) (main_arg1 : IVec S2x3200000 32) (main_arg2 : FVec F S10x50 .f32) (main_arg3 : FVec F S50 .f32) (main_arg4 : FVec F S50x50 .f32) (main_arg5 : FVec F S50 .f32) (main_arg6 : FVec F S50x1 .f32) (main_arg7 : FVec F S1 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S10x50 .f32 := Host.absf main_arg2
  let main_cst_0 : FVec F S_ .f32 := constant S_ .f32 0x7F800000#32
  let main_v5 : FVec F S10x50 .f32 := broadcastInDim S10x50 ![] bcast_S_S10x50 main_cst_0
  let main_v6 : IVec S10x50 1 := cmpf .olt main_v4 main_v5
  let main_c_1 : IVec S_ 1 := constantI S_ 1 1#1
  let main_v7 : IVec S_ 1 := (fun x v => Host.reduce IntOp.andi x v reducesTo_S10x50_S_d0_1 h_S_) main_v6 main_c_1
  let main_v8 : IVec S_ 1 := andi main_v3 main_v7
  let main_v9 : FVec F S50 .f32 := Host.absf main_arg3
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50x50 .f32 := Host.absf main_arg4
  let main_cst_4 : FVec F S_ .f32 := constant S_ .f32 0x7F800000#32
  let main_v15 : FVec F S50x50 .f32 := broadcastInDim S50x50 ![] bcast_S_S50x50 main_cst_4
  let main_v16 : IVec S50x50 1 := cmpf .olt main_v14 main_v15
  fn_part1 (F := F) main_arg5 main_arg6 main_arg7 main_v13 main_v16
-- ==== Kernel.lean ====
abbrev S100000x5 : Shape := ⟨2, ![100000, 5]⟩
abbrev S2x3200000 : Shape := ⟨2, ![2, 3200000]⟩
abbrev S10x50 : Shape := ⟨2, ![10, 50]⟩
abbrev S50 : Shape := ⟨1, ![50]⟩
abbrev S50x50 : Shape := ⟨2, ![50, 50]⟩
abbrev S50x1 : Shape := ⟨2, ![50, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x5 : Shape := ⟨2, ![3200000, 5]⟩
abbrev S3200000x10 : Shape := ⟨2, ![3200000, 10]⟩
abbrev S1x50 : Shape := ⟨2, ![1, 50]⟩
abbrev S1x1 : Shape := ⟨2, ![1, 1]⟩
abbrev S6400x10 : Shape := ⟨2, ![6400, 10]⟩
abbrev S6400x1 : Shape := ⟨2, ![6400, 1]⟩
abbrev S6400x50 : Shape := ⟨2, ![6400, 50]⟩

abbrev nBuf : Space → Nat
  | .hbm => 35
  | .vmem => 10
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S10x50, .f32⟩
  | .hbm, ⟨3, _⟩ => ⟨S50, .f32⟩
  | .hbm, ⟨4, _⟩ => ⟨S50x50, .f32⟩
  | .hbm, ⟨5, _⟩ => ⟨S50, .f32⟩
  | .hbm, ⟨6, _⟩ => ⟨S50x1, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x5, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x5, .f32⟩
  | .hbm, ⟨30, _⟩ => ⟨S3200000x10, .f32⟩
  | .hbm, ⟨31, _⟩ => ⟨S1x50, .f32⟩
  | .hbm, ⟨32, _⟩ => ⟨S1x50, .f32⟩
  | .hbm, ⟨33, _⟩ => ⟨S1x1, .f32⟩
  | .hbm, ⟨34, _⟩ => ⟨S3200000x1, .f32⟩
  | .local _ .vmem, ⟨0, _⟩ => ⟨S6400x10, .f32⟩
  | .local _ .vmem, ⟨1, _⟩ => ⟨S6400x10, .f32⟩
  | .local _ .vmem, ⟨2, _⟩ => ⟨S10x50, .f32⟩
  | .local _ .vmem, ⟨3, _⟩ => ⟨S1x50, .f32⟩
  | .local _ .vmem, ⟨4, _⟩ => ⟨S50x50, .f32⟩
  | .local _ .vmem, ⟨5, _⟩ => ⟨S1x50, .f32⟩
  | .local _ .vmem, ⟨6, _⟩ => ⟨S50x1, .f32⟩
  | .local _ .vmem, ⟨7, _⟩ => ⟨S1x1, .f32⟩
  | .local _ .vmem, ⟨8, _⟩ => ⟨S6400x1, .f32⟩
  | .local _ .vmem, ⟨9, _⟩ => ⟨S6400x1, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x5_S3200000x5_S3200000x10_d1 : Shape.Concatenates [S3200000x5, S3200000x5] S3200000x10 1
  shapeCasts_S50_S1x50 : S50.ShapeCasts S1x50
  shapeCasts_S1_S1x1 : S1.ShapeCasts S1x1
  inb_S6400x10_S6400x10_0_0 : ∀ a, (![0, 0] : Fin 2 → Nat) a + S6400x10.size a ≤ S6400x10.size a
  h_S6400x10 : 0 < S6400x10.numel
  shapeCasts_S6400x10_S6400x10 : S6400x10.ShapeCasts S6400x10
  bitsLt_bf16_f32 : FTy.bits .bf16 < FTy.bits .f32
  inb_S10x50_S10x50_0_0 : ∀ a, (![0, 0] : Fin 2 → Nat) a + S10x50.size a ≤ S10x50.size a
  h_S10x50 : 0 < S10x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S6400x50 : S1x50.Broadcasts S6400x50
  inb_S50x50_S50x50_0_0 : ∀ a, (![0, 0] : Fin 2 → Nat) a + S50x50.size a ≤ S50x50.size a
  h_S50x50 : 0 < S50x50.numel
  inb_S50x1_S50x1_0_0 : ∀ a, (![0, 0] : Fin 2 → Nat) a + S50x1.size a ≤ S50x1.size a
  h_S50x1 : 0 < S50x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  gather_S100000x5_S3200000x1_S3200000x5_1_0_n_n_0_1_15_wf : GatherDims.WF S100000x5 S3200000x1 S3200000x5 [1] [0] [] [0] [] 1 ![1, 5]
  dot_S6400x10_S10x50_S6400x50_1_0_0_1_n_n_wf : DotDims.WF S6400x10 S10x50 S6400x50 [1] [0] [0] [1] [] []
  dot_S6400x50_S50x50_S6400x50_1_0_0_1_n_n_wf : DotDims.WF S6400x50 S50x50 S6400x50 [1] [0] [0] [1] [] []
  dot_S6400x50_S50x1_S6400x1_1_0_0_1_n_n_wf : DotDims.WF S6400x50 S50x1 S6400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x10.size a ≤ S3200000x10.size a
  hwx0_0 : ∀ i : grid0.Coords, EltTy.bits .f32 = 32 ∨ (Rect.block (s := S3200000x10) S6400x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x50.size a ≤ S10x50.size a
  hwx0_1 : ∀ i : grid0.Coords, EltTy.bits .f32 = 32 ∨ (Rect.block (s := S10x50) S10x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x50.size a ≤ S50x50.size a
  hwx0_3 : ∀ i : grid0.Coords, EltTy.bits .f32 = 32 ∨ (Rect.block (s := S50x50) S50x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x1.size a ≤ S50x1.size a
  hwx0_5 : ∀ i : grid0.Coords, EltTy.bits .f32 = 32 ∨ (Rect.block (s := S50x1) S50x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x1.size a ≤ S3200000x1.size a
  hwx0_7 : ∀ i : grid0.Coords, EltTy.bits .f32 = 32 ∨ (Rect.block (s := S3200000x1) S6400x1.size (cc0_transform_7 i) (hinb0_7 i)).WholeWords (EltTy.packing .f32)

variable [Facts₀]

def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def dot_S6400x10_S10x50_S6400x50_1_0_0_1_n_n : DotDims S6400x10 S10x50 S6400x50 where
  lhsContracting := [1]
  rhsContracting := [0]
  lhsNonContracting := [0]
  rhsNonContracting := [1]
  lhsBatch := []
  rhsBatch := []
  wf := dot_S6400x10_S10x50_S6400x50_1_0_0_1_n_n_wf
def dot_S6400x50_S50x50_S6400x50_1_0_0_1_n_n : DotDims S6400x50 S50x50 S6400x50 where
  lhsContracting := [1]
  rhsContracting := [0]
  lhsNonContracting := [0]
  rhsNonContracting := [1]
  lhsBatch := []
  rhsBatch := []
  wf := dot_S6400x50_S50x50_S6400x50_1_0_0_1_n_n_wf
def dot_S6400x50_S50x1_S6400x1_1_0_0_1_n_n : DotDims S6400x50 S50x1 S6400x1 where
  lhsContracting := [1]
  rhsContracting := [0]
  lhsNonContracting := [0]
  rhsNonContracting := [1]
  lhsBatch := []
  rhsBatch := []
  wf := dot_S6400x50_S50x1_S6400x1_1_0_0_1_n_n_wf

abbrev win0_0 : Pipeline.Window sig grid0 :=
  Pipeline.Window.ofSpec (Memref.whole main_v18) S6400x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S50x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S50x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S6400x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x5 : Shape := ⟨2, ![100000, 5]⟩
abbrev S2x3200000 : Shape := ⟨2, ![2, 3200000]⟩
abbrev S10x50 : Shape := ⟨2, ![10, 50]⟩
abbrev S50 : Shape := ⟨1, ![50]⟩
abbrev S50x50 : Shape := ⟨2, ![50, 50]⟩
abbrev S50x1 : Shape := ⟨2, ![50, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x5 : Shape := ⟨2, ![3200000, 5]⟩
abbrev S3200000x10 : Shape := ⟨2, ![3200000, 10]⟩
abbrev S3200000x50 : Shape := ⟨2, ![3200000, 50]⟩
abbrev S1x50 : Shape := ⟨2, ![1, 50]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S10x50, .f32⟩
  | .hbm, ⟨3, _⟩ => ⟨S50, .f32⟩
  | .hbm, ⟨4, _⟩ => ⟨S50x50, .f32⟩
  | .hbm, ⟨5, _⟩ => ⟨S50, .f32⟩
  | .hbm, ⟨6, _⟩ => ⟨S50x1, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x5, .f32⟩
  | .hbm, ⟨19, _⟩ => ⟨S1x3200000, .i32⟩
  | .hbm, ⟨20, _⟩ => ⟨S3200000, .i32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x5, .f32⟩
  | .hbm, ⟨30, _⟩ => ⟨S3200000x10, .f32⟩
  | .hbm, ⟨31, _⟩ => ⟨S3200000x50, .f32⟩
  | .hbm, ⟨32, _⟩ => ⟨S1x50, .f32⟩
  | .hbm, ⟨33, _⟩ => ⟨S3200000x50, .f32⟩
  | .hbm, ⟨34, _⟩ => ⟨S3200000x50, .f32⟩
  | .hbm, ⟨35, _⟩ => ⟨S_, .f32⟩
  | .hbm, ⟨36, _⟩ => ⟨S3200000x50, .f32⟩
  | .hbm, ⟨37, _⟩ => ⟨S3200000x50, .f32⟩
  | .hbm, ⟨38, _⟩ => ⟨S3200000x50, .f32⟩
  | .hbm, ⟨39, _⟩ => ⟨S1x50, .f32⟩
  | .hbm, ⟨40, _⟩ => ⟨S3200000x50, .f32⟩
  | .hbm, ⟨41, _⟩ => ⟨S3200000x50, .f32⟩
  | .hbm, ⟨42, _⟩ => ⟨S_, .f32⟩
  | .hbm, ⟨43, _⟩ => ⟨S3200000x50, .f32⟩
  | .hbm, ⟨44, _⟩ => ⟨S3200000x50, .f32⟩
  | .hbm, ⟨45, _⟩ => ⟨S3200000x1, .f32⟩
  | .hbm, ⟨46, _⟩ => ⟨S1x1, .f32⟩
  | .hbm, ⟨47, _⟩ => ⟨S3200000x1, .f32⟩
  | .hbm, ⟨48, _⟩ => ⟨S3200000x1, .f32⟩
  | .hbm, ⟨49, _⟩ => ⟨S3200000x1, .f32⟩
  | .hbm, ⟨50, _⟩ => ⟨S3200000x1, .f32⟩
  | .hbm, ⟨51, _⟩ => ⟨S_, .f32⟩
  | .hbm, ⟨52, _⟩ => ⟨S3200000x1, .f32⟩
  | .hbm, ⟨53, _⟩ => ⟨S3200000x1, .f32⟩
  | .hbm, ⟨54, _⟩ => ⟨S_, .f32⟩
  | .hbm, ⟨55, _⟩ => ⟨S3200000x1, .f32⟩
  | .hbm, ⟨56, _⟩ => ⟨S3200000x1, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  concatenates_S3200000x5_S3200000x5_S3200000x10_d1 : Shape.Concatenates [S3200000x5, S3200000x5] S3200000x10 1
  bcast_S50_S1x50_1 : S50.BroadcastsInDim S1x50 (![1] : Fin 1 → Fin S1x50.rank)
  bcast_S1x50_S3200000x50_0_1 : S1x50.BroadcastsInDim S3200000x50 (![0, 1] : Fin 2 → Fin S3200000x50.rank)
  bcast_S_S3200000x50 : S_.BroadcastsInDim S3200000x50 (![] : Fin 0 → Fin S3200000x50.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S_S3200000x1 : S_.BroadcastsInDim S3200000x1 (![] : Fin 0 → Fin S3200000x1.rank)
  gather_S100000x5_S3200000x1_S3200000x5_1_0_n_n_0_1_15_wf : GatherDims.WF S100000x5 S3200000x1 S3200000x5 [1] [0] [] [0] [] 1 ![1, 5]
  dot_S3200000x10_S10x50_S3200000x50_1_0_0_1_n_n_wf : DotDims.WF S3200000x10 S10x50 S3200000x50 [1] [0] [0] [1] [] []
  dot_S3200000x50_S50x50_S3200000x50_1_0_0_1_n_n_wf : DotDims.WF S3200000x50 S50x50 S3200000x50 [1] [0] [0] [1] [] []
  dot_S3200000x50_S50x1_S3200000x1_1_0_0_1_n_n_wf : DotDims.WF S3200000x50 S50x1 S3200000x1 [1] [0] [0] [1] [] []

variable [Facts₀]

def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def dot_S3200000x10_S10x50_S3200000x50_1_0_0_1_n_n : DotDims S3200000x10 S10x50 S3200000x50 where
  lhsContracting := [1]
  rhsContracting := [0]
  lhsNonContracting := [0]
  rhsNonContracting := [1]
  lhsBatch := []
  rhsBatch := []
  wf := dot_S3200000x10_S10x50_S3200000x50_1_0_0_1_n_n_wf
def dot_S3200000x50_S50x50_S3200000x50_1_0_0_1_n_n : DotDims S3200000x50 S50x50 S3200000x50 where
  lhsContracting := [1]
  rhsContracting := [0]
  lhsNonContracting := [0]
  rhsNonContracting := [1]
  lhsBatch := []
  rhsBatch := []
  wf := dot_S3200000x50_S50x50_S3200000x50_1_0_0_1_n_n_wf
def dot_S3200000x50_S50x1_S3200000x1_1_0_0_1_n_n : DotDims S3200000x50 S50x1 S3200000x1 where
  lhsContracting := [1]
  rhsContracting := [0]
  lhsNonContracting := [0]
  rhsNonContracting := [1]
  lhsBatch := []
  rhsBatch := []
  wf := dot_S3200000x50_S50x1_S3200000x1_1_0_0_1_n_n_wf

class Facts : Prop extends Facts₀ where

variable [Facts]
-- ==== Proof.EdgeMlp.lean ====
/-
  The mathematics of this certificate, free of any program.

  Every edge (a pair of node indices) is scored by a three-layer perceptron applied to the ten numbers obtained by
  joining the two nodes' five features: with e the joined row,

      h1 j = max (Σ_i e i · W1 (i, j) + b1 j, 0)          (j < 50)
      h2 k = max (Σ_j h1 j · W2 (j, k) + b2 k, 0)         (k < 50)
      score = σ (Σ_k h2 k · W3 (k, 0) + b3),               σ x = 1 / (1 + e^(-x)).

  On the extended reals every operation here is the exact one, a change of float format is the identity, and the
  logistic function is by definition the quotient 1 / (1 + exp (-x)) with the division's and the exponential's
  conventions at the infinities. So a program that rounds its matrix operands to a narrower format and calls the
  logistic function by name, and one that keeps the operands and spells the quotient out, compute this same number:
  nothing below uses more than the definitions (no distributivity, no cancellation), so finiteness of the inputs is
  never needed.
-/
import Idealize.ShloMosaic.PureOps.Ideal
import Idealize.ShloMosaic.PureOps.Ideal.Laws
import Idealize.ShloMosaic.Lib.ValueIdx
import Idealize.ShloMosaic.Lib.IdealHost

noncomputable section

namespace Cert.EdgeMlp

open Idealize.ShloMosaic Idealize.ShloMosaic.ValueIdx

/-- One clamped layer at one row: entry `q` of  max (a · W + b, 0). -/
def hidden {K N : ℕ} (a : Fin K → EReal) (W : (⟨2, ![K, N]⟩ : Shape).Idx → EReal) (b : Fin N → EReal) (q : Fin N) : EReal :=
  max ((∑ k : Fin K, a k * W (ix2 k q)) + b q) 0

/-- The score of one edge from its joined feature row `e`: two clamped layers, then the logistic function of the
    third layer's one output. -/
def score (e : Fin 10 → EReal) (W1 : (⟨2, ![10, 50]⟩ : Shape).Idx → EReal) (b1 : Fin 50 → EReal)
    (W2 : (⟨2, ![50, 50]⟩ : Shape).Idx → EReal) (b2 : Fin 50 → EReal)
    (W3 : (⟨2, ![50, 1]⟩ : Shape).Idx → EReal) (b3 : EReal) : EReal :=
  Ideal.logistic ((∑ k : Fin 50, hidden (hidden e W1 b1) W2 b2 k * W3 (ix2 k (0 : Fin 1))) + b3)

/-- Every edge's score as one [3200000, 1] array, a function of the joined edge features `ef` (one row per edge), the
    three weight matrices and the three bias vectors: entry (r, 0) is the score of row r of `ef`. -/
def scores (ef : (⟨2, ![3200000, 10]⟩ : Shape).Idx → EReal)
    (W1 : (⟨2, ![10, 50]⟩ : Shape).Idx → EReal) (b1 : (⟨1, ![50]⟩ : Shape).Idx → EReal)
    (W2 : (⟨2, ![50, 50]⟩ : Shape).Idx → EReal) (b2 : (⟨1, ![50]⟩ : Shape).Idx → EReal)
    (W3 : (⟨2, ![50, 1]⟩ : Shape).Idx → EReal) (b3 : (⟨1, ![1]⟩ : Shape).Idx → EReal) :
    (⟨2, ![3200000, 1]⟩ : Shape).Idx → EReal :=
  fun i => score (fun k => ef (ix2 (i 0) k)) W1 (fun j => b1 (ix1 j)) W2 (fun k => b2 (ix1 k)) W3 (b3 (ix1 (0 : Fin 1)))

theorem scores_apply (ef : (⟨2, ![3200000, 10]⟩ : Shape).Idx → EReal)
    (W1 : (⟨2, ![10, 50]⟩ : Shape).Idx → EReal) (b1 : (⟨1, ![50]⟩ : Shape).Idx → EReal)
    (W2 : (⟨2, ![50, 50]⟩ : Shape).Idx → EReal) (b2 : (⟨1, ![50]⟩ : Shape).Idx → EReal)
    (W3 : (⟨2, ![50, 1]⟩ : Shape).Idx → EReal) (b3 : (⟨1, ![1]⟩ : Shape).Idx → EReal) (r : Fin 3200000) (q : Fin 1) :
    scores ef W1 b1 W2 b2 W3 b3 (ix2 r q)
      = score (fun k => ef (ix2 r k)) W1 (fun j => b1 (ix1 j)) W2 (fun k => b2 (ix1 k)) W3 (b3 (ix1 (0 : Fin 1))) := rfl

/-- The score depends only on its seven arguments. -/
theorem score_congr {e e' : Fin 10 → EReal} {W1 W1' : (⟨2, ![10, 50]⟩ : Shape).Idx → EReal} {b1 b1' : Fin 50 → EReal}
    {W2 W2' : (⟨2, ![50, 50]⟩ : Shape).Idx → EReal} {b2 b2' : Fin 50 → EReal}
    {W3 W3' : (⟨2, ![50, 1]⟩ : Shape).Idx → EReal} {b3 b3' : EReal}
    (he : e = e') (h1 : W1 = W1') (hb1 : b1 = b1') (h2 : W2 = W2') (hb2 : b2 = b2') (h3 : W3 = W3') (hb3 : b3 = b3') :
    score e W1 b1 W2 b2 W3 b3 = score e' W1' b1' W2' b2' W3' b3' := by
  subst he h1 hb1 h2 hb2 h3 hb3; rfl

/-- The quotient  1 / (1 + exp (-x))  spelt with the f32 word of one is the logistic function. -/
theorem logistic_spelt (x : EReal) :
    Ideal.div (Ideal.ofBits .f32 0x3F800000#32) (Ideal.ofBits .f32 0x3F800000#32 + Ideal.exp (-x)) = Ideal.logistic x := by
  rw [Ideal.ofBits_one_f32]
  rfl

end Cert.EdgeMlp

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.Tile.lean ====
/-
  What the kernel body computes on one tile of 6400 edges, read at an entry.

  The body loads a [6400, 10] block of joined edge features, the three weight matrices whole, and the three biases as
  one-row arrays; it rounds each matrix operand to a narrower float format (the identity on extended reals), takes
  three matrix products into zero accumulators (plain sums), adds each bias row to every row of its product, clamps
  the first two layers below at zero, and applies the logistic function. Entry (p, 0) of what it stores is therefore
  the edge score of row p of the feature block.
-/
import proofs.«131141_j10917806866765_1_alg».proof.Proof.Gen.KernelIdeal.Skeleton
import proofs.«131141_j10917806866765_1_alg».proof.Proof.EdgeMlp
import proofs.«131141_j10917806866765_1_alg».proof.Proof.LibPlainMatmul
import Idealize.ShloMosaic.Lib.Pipeline.Value
import Idealize.ShloMosaic.Lib.ValueLayout

noncomputable section

namespace Cert.KernelIdeal.Tile

open Cert.KernelIdeal Cert.KernelIdeal.Gen Cert.EdgeMlp Idealize.ShloMosaic Idealize.ShloMosaic.ValueIdx

/-- The first layer's product, [6400, 10] by [10, 50] into zero: entry (p, q) is the sum over the ten features. -/
theorem mm1 (A : FVec Ideal S6400x10 .bf16) (B : FVec Ideal S10x50 .bf16) (p : Fin 6400) (q : Fin 50) :
    matmul dot_S6400x10_S10x50_S6400x50_1_0_0_1_n_n none A B (constant S6400x50 .f32 0x00000000#32) (ix2 p q)
      = ∑ k : Fin 10, A (ix2 p k) * B (ix2 k q) :=
  LibPlainMatmul.matmul_plain_zero_apply none A B p q

/-- The second layer's product, [6400, 50] by [50, 50] into zero. -/
theorem mm2 (A : FVec Ideal S6400x50 .bf16) (B : FVec Ideal S50x50 .bf16) (p : Fin 6400) (q : Fin 50) :
    matmul dot_S6400x50_S50x50_S6400x50_1_0_0_1_n_n none A B (constant S6400x50 .f32 0x00000000#32) (ix2 p q)
      = ∑ k : Fin 50, A (ix2 p k) * B (ix2 k q) :=
  LibPlainMatmul.matmul_plain_zero_apply none A B p q

/-- The third layer's product, [6400, 50] by [50, 1] into zero. -/
theorem mm3 (A : FVec Ideal S6400x50 .bf16) (B : FVec Ideal S50x1 .bf16) (p : Fin 6400) (q : Fin 1) :
    matmul dot_S6400x50_S50x1_S6400x1_1_0_0_1_n_n none A B (constant S6400x1 .f32 0x00000000#32) (ix2 p q)
      = ∑ k : Fin 50, A (ix2 p k) * B (ix2 k q) :=
  LibPlainMatmul.matmul_plain_zero_apply none A B p q

/-- A one-row bias of width 50 added to every row: at (p, q) it reads the row at q. -/
theorem bias50 (b : FVec Ideal S1x50 .f32) (p : Fin 6400) (q : Fin 50) :
    broadcastTo S6400x50 b broadcasts_S1x50_S6400x50 (ix2 p q) = b (ix2 (0 : Fin 1) q) :=
  broadcastTo_1b_ab_apply b _ p q

/-- The last layer's bias, a [1, 1] array, added to every row. -/
theorem bias1 (b : FVec Ideal S1x1 .f32) (p : Fin 6400) (q : Fin 1) :
    broadcastTo S6400x1 b broadcasts_S1x1_S6400x1 (ix2 p q) = b (ix2 (0 : Fin 1) q) :=
  broadcastTo_1b_ab_apply b _ p q

/-- Entry (p, 0) of the tile's result is the score of row p of the feature block, with the biases read off their one
    row. -/
theorem pay_apply (x0 : Vec Ideal S6400x10 .f32) (x1 : Vec Ideal S10x50 .f32) (x2 : Vec Ideal S1x50 .f32)
    (x3 : Vec Ideal S50x50 .f32) (x4 : Vec Ideal S1x50 .f32) (x5 : Vec Ideal S50x1 .f32) (x6 : Vec Ideal S1x1 .f32)
    (p : Fin 6400) (q : Fin 1) :
    k0_pay1 (F := Ideal) x0 x1 x2 x3 x4 x5 x6 (ix2 p q)
      = score (fun i => x0 (ix2 p i)) x1 (fun j => x2 (ix2 (0 : Fin 1) j)) x3 (fun k => x4 (ix2 (0 : Fin 1) k)) x5
          (x6 (ix2 (0 : Fin 1) (0 : Fin 1))) := by
  obtain rfl : q = 0 := Fin.eq_zero q
  unfold k0_pay1
  show FloatOps.logistic (addf _ _ (ix2 p (0 : Fin 1))) = _
  simp only [addf_apply, mm3, mm2, mm1, truncf_apply, maximumf_apply, bias50, bias1, broadcast_apply, shapeCast_self,
    Ideal.logistic_def, Ideal.ofBits_def, Ideal.ofBits_zero_f32]
  rfl

end Cert.KernelIdeal.Tile

end
-- ==== Proof.Whole.lean ====
/-
  The kernel's result array as one function of the arrays its launch finds.

  The launch walks 500 grid points; at point t it stages rows 6400·t … 6400·t + 6399 of the joined edge features, the
  three weight matrices whole, and the three biases (each reshaped on the host to a one-row array), and writes rows
  6400·t … of the [3200000, 1] result. What point t writes back is the tile function of its blocks, which entry by
  entry is the edge score of the corresponding row of the feature array; the 500 blocks tile the result array, so the
  array ends holding every edge's score.
-/
import proofs.«131141_j10917806866765_1_alg».proof.Proof.Gen.KernelIdeal.Value
import proofs.«131141_j10917806866765_1_alg».proof.Proof.Tile
import Idealize.ShloMosaic.Lib.StableHlo.Run
import Idealize.ShloMosaic.Lib.ValueLayout

set_option maxRecDepth 16384

noncomputable section

namespace Cert.KernelIdeal.Whole

open Cert.KernelIdeal Cert.KernelIdeal.Gen Cert.EdgeMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays, at their literal types -/

/-- The joined edge features as the launch finds them: the host's concatenation of the two gathered arrays. -/
abbrev efArr (c : Dev nD) : FVec Ideal S3200000x10 .f32 := V m c main_v18
abbrev w1Arr (c : Dev nD) : FVec Ideal S10x50 .f32 := m ((c : Thread nD τ).loc main_arg2)
abbrev b1Arr (c : Dev nD) : FVec Ideal S50 .f32 := m ((c : Thread nD τ).loc main_arg3)
abbrev w2Arr (c : Dev nD) : FVec Ideal S50x50 .f32 := m ((c : Thread nD τ).loc main_arg4)
abbrev b2Arr (c : Dev nD) : FVec Ideal S50 .f32 := m ((c : Thread nD τ).loc main_arg5)
abbrev w3Arr (c : Dev nD) : FVec Ideal S50x1 .f32 := m ((c : Thread nD τ).loc main_arg6)
abbrev b3Arr (c : Dev nD) : FVec Ideal S1 .f32 := m ((c : Thread nD τ).loc main_arg7)

/-- Every edge's score, from the arrays the launch finds. -/
def result (c : Dev nD) : FVec Ideal S3200000x1 .f32 :=
  scores (efArr m c) (w1Arr m c) (b1Arr m c) (w2Arr m c) (b2Arr m c) (w3Arr m c) (b3Arr m c)

/-! ## The three biases, reshaped by the host to one-row arrays -/

theorem b1row (c : Dev nD) : (V m c main_v19 : FVec Ideal S1x50 .f32) = shapeCast S1x50 (b1Arr m c) shapeCasts_S50_S1x50 := by
  dsimp only [V, hostOps0]; after_results; rfl
theorem b2row (c : Dev nD) : (V m c main_v20 : FVec Ideal S1x50 .f32) = shapeCast S1x50 (b2Arr m c) shapeCasts_S50_S1x50 := by
  dsimp only [V, hostOps0]; after_results; rfl
theorem b3row (c : Dev nD) : (V m c main_v21 : FVec Ideal S1x1 .f32) = shapeCast S1x1 (b3Arr m c) shapeCasts_S1_S1x1 := by
  dsimp only [V, hostOps0]; after_results; rfl

/-! ## Where each window's block sits: the index maps, decided over the 500 points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of point t's tile is row 6400·t + p of the arrays. -/
def row (t : Fin cfg0.N) (p : Fin 6400) : Fin 3200000 :=
  ⟨t.val * 6400 + p.val, by have hN : cfg0.N = 500 := N_0; have := t.isLt; have := p.isLt; omega⟩

/-! ## The blocks, read -/

/-- The feature block at point t, row p, is row 6400·t + p of the feature array. -/
theorem blk0_apply (c : Dev nD) (t : Fin cfg0.N) (p : Fin 6400) (i : Fin 10) :
    iblk m c 0 t (ix2 p i) = efArr m c (ix2 (row t p) i) := by
  obtain ⟨h0, h1, -⟩ := idx_facts t
  unfold iblk
  show efArr m c (((cfg0.win 0).blk t).view.emb (ix2 p i)) = efArr m c (ix2 (row t p) i)
  refine congrArg (efArr m c) (funext fun a => Fin.ext ?_)
  match a with
  | ⟨0, _⟩ => show win0_0.index t (0 : Fin 2) * 6400 + 1 * p.val = t.val * 6400 + p.val; rw [h0]; omega
  | ⟨1, _⟩ => show win0_0.index t (1 : Fin 2) * 10 + 1 * i.val = i.val; rw [h1]; omega

/-- The first weight matrix is staged whole at every point. -/
theorem blk1 (c : Dev nD) (t : Fin cfg0.N) : (iblk m c 1 t : FVec Ideal S10x50 .f32) = w1Arr m c := by
  obtain ⟨-, -, h0, h1, -⟩ := idx_facts t
  funext y
  unfold iblk
  show (V m c main_arg2 : FVec Ideal S10x50 .f32) (((cfg0.win 1).blk t).view.emb y) = w1Arr m c y
  refine (congrFun (V_main_arg2 m c) _).trans (congrArg (w1Arr m c) (funext fun a => Fin.ext ?_))
  match a with
  | ⟨0, _⟩ => show win0_1.index t (0 : Fin 2) * 10 + 1 * (y 0).val = (y 0).val; rw [h0]; omega
  | ⟨1, _⟩ => show win0_1.index t (1 : Fin 2) * 50 + 1 * (y 1).val = (y 1).val; rw [h1]; omega

/-- So is the second … -/
theorem blk3 (c : Dev nD) (t : Fin cfg0.N) : (iblk m c 3 t : FVec Ideal S50x50 .f32) = w2Arr m c := by
  obtain ⟨-, -, -, -, -, -, h0, h1, -⟩ := idx_facts t
  funext y
  unfold iblk
  show (V m c main_arg4 : FVec Ideal S50x50 .f32) (((cfg0.win 3).blk t).view.emb y) = w2Arr m c y
  refine (congrFun (V_main_arg4 m c) _).trans (congrArg (w2Arr m c) (funext fun a => Fin.ext ?_))
  match a with
  | ⟨0, _⟩ => show win0_3.index t (0 : Fin 2) * 50 + 1 * (y 0).val = (y 0).val; rw [h0]; omega
  | ⟨1, _⟩ => show win0_3.index t (1 : Fin 2) * 50 + 1 * (y 1).val = (y 1).val; rw [h1]; omega

/-- … and the third. -/
theorem blk5 (c : Dev nD) (t : Fin cfg0.N) : (iblk m c 5 t : FVec Ideal S50x1 .f32) = w3Arr m c := by
  obtain ⟨-, -, -, -, -, -, -, -, -, -, h0, h1, -⟩ := idx_facts t
  funext y
  unfold iblk
  show (V m c main_arg6 : FVec Ideal S50x1 .f32) (((cfg0.win 5).blk t).view.emb y) = w3Arr m c y
  refine (congrFun (V_main_arg6 m c) _).trans (congrArg (w3Arr m c) (funext fun a => Fin.ext ?_))
  match a with
  | ⟨0, _⟩ => show win0_5.index t (0 : Fin 2) * 50 + 1 * (y 0).val = (y 0).val; rw [h0]; omega
  | ⟨1, _⟩ => show win0_5.index t (1 : Fin 2) * 1 + 1 * (y 1).val = (y 1).val; rw [h1]; omega

/-- The first bias's one-row block at (0, j) is the bias at j. -/
theorem blk2_apply (c : Dev nD) (t : Fin cfg0.N) (j : Fin 50) :
    iblk m c 2 t (ix2 (0 : Fin 1) j) = b1Arr m c (ix1 j) := by
  obtain ⟨-, -, -, -, h0, h1, -⟩ := idx_facts t
  unfold iblk
  show (V m c main_v19 : FVec Ideal S1x50 .f32) (((cfg0.win 2).blk t).view.emb (ix2 (0 : Fin 1) j)) = b1Arr m c (ix1 j)
  have e : ((cfg0.win 2).blk t).view.emb (ix2 (0 : Fin 1) j) = (ix2 (0 : Fin 1) j : S1x50.Idx) := funext fun a => Fin.ext (by
    match a with
    | ⟨0, _⟩ => show win0_2.index t (0 : Fin 2) * 1 + 1 * 0 = 0; rw [h0]
    | ⟨1, _⟩ => show win0_2.index t (1 : Fin 2) * 50 + 1 * j.val = j.val; rw [h1]; omega)
  exact (congrArg (V m c main_v19 : FVec Ideal S1x50 .f32) e).trans
    ((congrFun (b1row m c) _).trans (shapeCast_a_1a_apply (b1Arr m c) shapeCasts_S50_S1x50 0 j))

/-- The second bias likewise. -/
theorem blk4_apply (c : Dev nD) (t : Fin cfg0.N) (j : Fin 50) :
    iblk m c 4 t (ix2 (0 : Fin 1) j) = b2Arr m c (ix1 j) := by
  obtain ⟨-, -, -, -, -, -, -, -, h0, h1, -⟩ := idx_facts t
  unfold iblk
  show (V m c main_v20 : FVec Ideal S1x50 .f32) (((cfg0.win 4).blk t).view.emb (ix2 (0 : Fin 1) j)) = b2Arr m c (ix1 j)
  have e : ((cfg0.win 4).blk t).view.emb (ix2 (0 : Fin 1) j) = (ix2 (0 : Fin 1) j : S1x50.Idx) := funext fun a => Fin.ext (by
    match a with
    | ⟨0, _⟩ => show win0_4.index t (0 : Fin 2) * 1 + 1 * 0 = 0; rw [h0]
    | ⟨1, _⟩ => show win0_4.index t (1 : Fin 2) * 50 + 1 * j.val = j.val; rw [h1]; omega)
  exact (congrArg (V m c main_v20 : FVec Ideal S1x50 .f32) e).trans
    ((congrFun (b2row m c) _).trans (shapeCast_a_1a_apply (b2Arr m c) shapeCasts_S50_S1x50 0 j))

/-- The last bias: a [1, 1] block whose one entry is the bias's one entry. -/
theorem blk6_apply (c : Dev nD) (t : Fin cfg0.N) :
    iblk m c 6 t (ix2 (0 : Fin 1) (0 : Fin 1)) = b3Arr m c (ix1 (0 : Fin 1)) := by
  obtain ⟨-, -, -, -, -, -, -, -, -, -, -, -, h0, h1, -⟩ := idx_facts t
  unfold iblk
  show (V m c main_v21 : FVec Ideal S1x1 .f32) (((cfg0.win 6).blk t).view.emb (ix2 (0 : Fin 1) (0 : Fin 1))) = b3Arr m c (ix1 (0 : Fin 1))
  have e : ((cfg0.win 6).blk t).view.emb (ix2 (0 : Fin 1) (0 : Fin 1)) = (ix2 (0 : Fin 1) (0 : Fin 1) : S1x1.Idx) := funext fun a => Fin.ext (by
    match a with
    | ⟨0, _⟩ => show win0_6.index t (0 : Fin 2) * 1 + 1 * 0 = 0; rw [h0]
    | ⟨1, _⟩ => show win0_6.index t (1 : Fin 2) * 1 + 1 * 0 = 0; rw [h1])
  exact (congrArg (V m c main_v21 : FVec Ideal S1x1 .f32) e).trans
    ((congrFun (b3row m c) _).trans (shapeCast_a_1a_apply (b3Arr m c) shapeCasts_S1_S1x1 0 0))

/-- Entry (p, q) of point t's result block sits at row 6400·t + p of the result array. -/
theorem emb7 (t : Fin cfg0.N) (p : Fin 6400) (q : Fin 1) :
    ((cfg0.win 7).blk t).view.emb (ix2 p q) = (ix2 (row t p) q : S3200000x1.Idx) := by
  obtain ⟨-, -, -, -, -, -, -, -, -, -, -, -, -, -, h0, h1⟩ := idx_facts t
  funext a; apply Fin.ext
  match a with
  | ⟨0, _⟩ => show win0_7.index t (0 : Fin 2) * 6400 + 1 * p.val = t.val * 6400 + p.val; rw [h0]; omega
  | ⟨1, _⟩ => show win0_7.index t (1 : Fin 2) * 1 + 1 * q.val = q.val; rw [h1]; omega

/-! ## What each point writes back, and the array after the run -/

theorem hz : (![0, 0] : Fin 2 → Nat) = fun _ => 0 := funext fun a => by fin_cases a <;> rfl

/-- What point t writes back is its block of `result`. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero hz]
  simp only [View.ld_unit_zero (S := S6400x10) hz, View.ld_unit_zero (S := S10x50) hz, View.ld_unit_zero (S := S1x50) hz,
    View.ld_unit_zero (S := S50x50) hz, View.ld_unit_zero (S := S50x1) hz, View.ld_unit_zero (S := S1x1) hz]
  funext j
  obtain ⟨p, q, rfl⟩ : ∃ (p : Fin 6400) (q : Fin 1), j = ix2 p q := ⟨j 0, j 1, eq_ix2 j⟩
  show k0_pay1 (F := Ideal) (iblk m c 0 t) (iblk m c 1 t) (iblk m c 2 t) (iblk m c 3 t) (iblk m c 4 t) (iblk m c 5 t) (iblk m c 6 t) (ix2 p q)
    = result m c (((cfg0.win 7).blk t).view.emb (ix2 p q))
  refine (Tile.pay_apply (iblk m c 0 t) (iblk m c 1 t) (iblk m c 2 t) (iblk m c 3 t) (iblk m c 4 t) (iblk m c 5 t) (iblk m c 6 t) p q).trans ?_
  refine Eq.trans ?_ (congrArg (result m c) (emb7 t p q)).symm
  unfold result
  rw [scores_apply]
  exact score_congr (funext fun i => blk0_apply m c t p i) (blk1 m c t) (funext fun j => blk2_apply m c t j) (blk3 m c t)
    (funext fun k => blk4_apply m c t k) (blk5 m c t) (blk6_apply m c t)

/-- An index of the result array is in point t's block iff each coordinate is in the block's range. -/
theorem mem_blk7 (t : Fin cfg0.N) (i : S3200000x1.Idx) :
    i ∈ ((cfg0.win 7).blk t).view.set ↔ ∀ a : Fin 2, win0_7.index t a * S6400x1.size a ≤ (i a).val ∧ (i a).val < win0_7.index t a * S6400x1.size a + S6400x1.size a := by
  show i ∈ ((View.whole main_v22).slice (win0_7.rect t)).set ↔ _
  rw [View.set_slice_whole, Rect.mem_set_unit]
  exact Iff.rfl

/-- Row r of the result lies in the block of point r / 6400: the 500 blocks tile the array. -/
theorem covered (i : S3200000x1.Idx) :
    ∃ t : Fin cfg0.N, (cfg0.win 7).flush t = true ∧ i ∈ ((cfg0.win 7).blk t).view.set := by
  have hN : cfg0.N = 500 := N_0
  have hi0 : (i 0).val < 3200000 := (i 0).isLt
  have hi1 : (i 1).val < 1 := (i 1).isLt
  obtain ⟨t, ht⟩ : ∃ t : Fin cfg0.N, t.val = (i 0).val / 6400 := ⟨⟨(i 0).val / 6400, by omega⟩, rfl⟩
  obtain ⟨-, -, -, -, -, -, -, -, -, -, -, -, -, -, h0, h1⟩ := idx_facts t
  refine ⟨t, flush0_7 t, ?_⟩
  rw [mem_blk7]
  intro a
  match a with
  | ⟨0, _⟩ => show win0_7.index t (0 : Fin 2) * 6400 ≤ (i 0).val ∧ (i 0).val < win0_7.index t (0 : Fin 2) * 6400 + 6400; rw [h0]; omega
  | ⟨1, _⟩ => show win0_7.index t (1 : Fin 2) * 1 ≤ (i 1).val ∧ (i 1).val < win0_7.index t (1 : Fin 2) * 1 + 1; rw [h1]; omega

/-- The result array after the run holds every edge's score. -/
theorem final (c : Dev nD) : (dats m 0 c).arrAt 7 cfg0.N = result m c :=
  (dats m 0 c).arrAt_eq_of_cover 7 (result m c) (fun t _ => flushed_eq m c t) covered

/-- The kernel's run, with the result array named. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Whole

end
-- ==== Proof.RefStage.lean ====
/-
  The reference program's result, read at an entry.

  After joining the two gathered feature arrays into one [3200000, 10] array (kept here as one array, never opened),
  the reference takes three whole-array matrix products, each followed by its bias broadcast over the rows, clamps the
  first two at zero, and spells the logistic function as 1 / (1 + exp (-x)). Entry (r, 0) of its result is the edge
  score of row r of the joined array.
-/
import proofs.«131141_j10917806866765_1_alg».proof.Proof.Gen.ReferenceIdeal.Read
import proofs.«131141_j10917806866765_1_alg».proof.Proof.EdgeMlp

noncomputable section

namespace Cert.ReferenceIdeal.Stage

open Cert.ReferenceIdeal Cert.ReferenceIdeal.Gen Cert.ReferenceIdeal.Read Cert.EdgeMlp
open Idealize.ShloMosaic Idealize.ShloMosaic.ValueIdx

/-! The index maps of the three products and of the bias broadcasts, at an entry given by its coordinates. -/

theorem lidx29 (r : Fin 3200000) (q : Fin 1) (k : Fin 50) : lidx_main_v29 (ix2 r q) k = ix2 r k :=
  funext fun a => Fin.ext (by match a with | ⟨0, _⟩ => rfl | ⟨1, _⟩ => rfl)
theorem ridx29 (r : Fin 3200000) (q : Fin 1) (k : Fin 50) : ridx_main_v29 (ix2 r q) k = ix2 k q :=
  funext fun a => Fin.ext (by match a with | ⟨0, _⟩ => rfl | ⟨1, _⟩ => rfl)
theorem lidx24 (r : Fin 3200000) (q : Fin 50) (k : Fin 50) : lidx_main_v24 (ix2 r q) k = ix2 r k :=
  funext fun a => Fin.ext (by match a with | ⟨0, _⟩ => rfl | ⟨1, _⟩ => rfl)
theorem ridx24 (r : Fin 3200000) (q : Fin 50) (k : Fin 50) : ridx_main_v24 (ix2 r q) k = ix2 k q :=
  funext fun a => Fin.ext (by match a with | ⟨0, _⟩ => rfl | ⟨1, _⟩ => rfl)
theorem lidx19 (r : Fin 3200000) (q : Fin 50) (k : Fin 10) : lidx_main_v19 (ix2 r q) k = ix2 r k :=
  funext fun a => Fin.ext (by match a with | ⟨0, _⟩ => rfl | ⟨1, _⟩ => rfl)
theorem ridx19 (r : Fin 3200000) (q : Fin 50) (k : Fin 10) : ridx_main_v19 (ix2 r q) k = ix2 k q :=
  funext fun a => Fin.ext (by match a with | ⟨0, _⟩ => rfl | ⟨1, _⟩ => rfl)
theorem idx21 (r : Fin 3200000) (q : Fin 50) : idx_main_v21 (ix2 r q) = ix2 (0 : Fin 1) q :=
  funext fun a => Fin.ext (by match a with | ⟨0, _⟩ => rfl | ⟨1, _⟩ => rfl)
theorem idx26 (r : Fin 3200000) (q : Fin 50) : idx_main_v26 (ix2 r q) = ix2 (0 : Fin 1) q :=
  funext fun a => Fin.ext (by match a with | ⟨0, _⟩ => rfl | ⟨1, _⟩ => rfl)
theorem idx31 (r : Fin 3200000) (q : Fin 1) : idx_main_v31 (ix2 r q) = ix2 (0 : Fin 1) (0 : Fin 1) :=
  funext fun a => Fin.ext (by match a with | ⟨0, _⟩ => rfl | ⟨1, _⟩ => rfl)
theorem idx20 (u : Fin 1) (q : Fin 50) : idx_main_v20 (ix2 u q) = ix1 q :=
  funext fun a => Fin.ext (by match a with | ⟨0, _⟩ => rfl)
theorem idx25 (u : Fin 1) (q : Fin 50) : idx_main_v25 (ix2 u q) = ix1 q :=
  funext fun a => Fin.ext (by match a with | ⟨0, _⟩ => rfl)
theorem idx30 (u v : Fin 1) : idx_main_v30 (ix2 u v) = ix1 (0 : Fin 1) :=
  funext fun a => Fin.ext (by match a with | ⟨0, _⟩ => rfl)

/-- Entry (r, 0) of the reference's result is the score of row r of the joined feature array. -/
theorem ref_apply (x0 : (⟨S100000x5, .f32⟩ : BufTy).Contents (Elt Ideal)) (x1 : (⟨S2x3200000, .i32⟩ : BufTy).Contents (Elt Ideal))
    (x2 : (⟨S10x50, .f32⟩ : BufTy).Contents (Elt Ideal)) (x3 : (⟨S50, .f32⟩ : BufTy).Contents (Elt Ideal))
    (x4 : (⟨S50x50, .f32⟩ : BufTy).Contents (Elt Ideal)) (x5 : (⟨S50, .f32⟩ : BufTy).Contents (Elt Ideal))
    (x6 : (⟨S50x1, .f32⟩ : BufTy).Contents (Elt Ideal)) (x7 : (⟨S1, .f32⟩ : BufTy).Contents (Elt Ideal))
    (r : Fin 3200000) (q : Fin 1) :
    val_main_v38 (F := Ideal) x0 x1 x2 x3 x4 x5 x6 x7 (ix2 r q)
      = score (fun i => val_main_v18 (F := Ideal) x0 x1 (ix2 r i)) x2 (fun j => x3 (ix1 j)) x4 (fun k => x5 (ix1 k)) x6
          (x7 (ix1 (0 : Fin 1))) := by
  obtain rfl : q = 0 := Fin.eq_zero q
  rw [val_main_v38_apply, val_main_v37_apply, val_main_cst_3_apply, val_main_v36_apply, val_main_v35_apply,
    val_main_cst_apply, val_main_v34_apply, val_main_v33_apply, val_main_v32_apply, val_main_v29_apply,
    val_main_v31_apply, val_main_v30_apply]
  simp only [val_main_v28_apply, val_main_v27_apply, val_main_v24_apply, val_main_v26_apply, val_main_v25_apply,
    val_main_call1_v0_apply, val_main_call1_cst_apply, val_main_v23_apply, val_main_v22_apply, val_main_v19_apply,
    val_main_v21_apply, val_main_v20_apply, val_main_call0_v0_apply, val_main_call0_cst_apply,
    lidx29, ridx29, lidx24, ridx24, lidx19, ridx19, idx21, idx20, idx26, idx25, idx31, idx30,
    Ideal.hostDivf_def, Ideal.addf_def, Ideal.hostUnary_exp_def, Ideal.hostNegf_def, Ideal.negf_def,
    Ideal.maximumf_def, Ideal.ofBits_def, Ideal.ofBits_zero_f32, logistic_spelt]
  rfl

end Cert.ReferenceIdeal.Stage

end
-- ==== Proof.Joined.lean ====
/-
  The joined edge features are built by the same host operations in both programs.

  Each program slices the two rows of the edge index array, wraps negative node indices by adding the node count,
  gathers the indexed rows of the node feature table, and joins the two gathered [3200000, 5] arrays side by side.
  The kernel program does this before its launch, the reference before its first matrix product; the two stretches
  apply the same operations to the same arguments, so the array the launch finds is the reference's joined array.
  (Which rows the gathers read, and how they treat an index out of range, never has to be opened: it is the same
  function on both sides.)
-/
import proofs.«131141_j10917806866765_1_alg».proof.Proof.Gen.KernelIdeal.Frame
import proofs.«131141_j10917806866765_1_alg».proof.Proof.Gen.ReferenceIdeal.Read
import Idealize.ShloMosaic.Lib.StableHlo.Run

set_option maxRecDepth 16384

noncomputable section

namespace Cert.Joined

open Idealize.ShloMosaic Idealize.ShloMosaic.TcCoe Idealize.SL.Sem Idealize.ShloMosaic.StableHlo

/-- The array the kernel's launch finds as its first operand is the reference's joined feature array of the same
    node table and edge indices. -/
theorem ef_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v18 : FVec Ideal Cert.KernelIdeal.S3200000x10 .f32)
      = Cert.ReferenceIdeal.Read.val_main_v18 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results_simp
  rfl

end Cert.Joined

end
-- ==== Proof.Bridge.lean ====
/-
  The two programs' results are one function of the arguments.

  The kernel's result array holds, at row r, the edge score of row r of the joined feature array its launch finds; the
  reference's result holds, at row r, the edge score of row r of its own joined array; and the two joined arrays are
  the same function of the node table and the edge indices. The weight matrices and biases enter both scores
  unchanged.
-/
import proofs.«131141_j10917806866765_1_alg».proof.Proof.Whole
import proofs.«131141_j10917806866765_1_alg».proof.Proof.RefStage
import proofs.«131141_j10917806866765_1_alg».proof.Proof.Joined

noncomputable section

namespace Cert.Bridge

open Cert.EdgeMlp Idealize.ShloMosaic Idealize.ShloMosaic.TcCoe Idealize.ShloMosaic.ValueIdx Idealize.SL.Sem

/-- The reference's last stage, at the kernel's arguments, is the kernel's result array. -/
theorem ref_eq (m : (ℓ : Loc Cert.KernelIdeal.nD Cert.KernelIdeal.τ Cert.KernelIdeal.sig) → Buf (Elt Ideal) ℓ)
    (c : Dev Cert.KernelIdeal.nD) :
    Cert.ReferenceIdeal.Read.val_main_v38 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
      = Cert.KernelIdeal.Whole.result m c := by
  funext i
  obtain ⟨r, q, rfl⟩ : ∃ (r : Fin 3200000) (q : Fin 1), i = ix2 r q := ⟨i 0, i 1, eq_ix2 i⟩
  refine (Cert.ReferenceIdeal.Stage.ref_apply _ _ _ _ _ _ _ _ r q).trans ?_
  unfold Cert.KernelIdeal.Whole.result
  rw [scores_apply]
  exact score_congr (funext fun k => (congrFun (Cert.Joined.ef_eq m c) (ix2 r k)).symm) rfl rfl rfl rfl rfl rfl

end Cert.Bridge

end
-- ==== Proof.lean ====
/- The proof of `Cert.Claim` (proofs.«131141_j10917806866765_1_alg».proof.Defs).

   The kernel scores every edge of a graph with a three-layer perceptron on the joined features of the edge's two
   nodes; the reference does the same with whole-array operations. On the extended reals the two are one function:
   the kernel's narrowing of its matrix operands is the identity, a matrix product into a zero accumulator and a
   whole-array contraction are the same sums, both clamp with the same maximum, and the logistic function is by
   definition the quotient the reference spells out. The gathers and the join that build the edge features are the
   same host operations in both programs and are carried as one array.

   Proof/EdgeMlp.lean states the score; Proof/Tile.lean reads the kernel body's tile at an entry, Proof/Whole.lean
   tiles the 500 blocks into the result array, Proof/RefStage.lean reads the reference at an entry, Proof/Joined.lean
   identifies the two joined feature arrays, Proof/Bridge.lean sets the two results beside each other. The three
   frames are the generated ones (the reference's is its run with the result dropped); the idealization rewrote
   nothing, so `preserves` is trivial. -/
import proofs.«131141_j10917806866765_1_alg».proof.Defs
import proofs.«131141_j10917806866765_1_alg».proof.Proof.Gen.Kernel
import proofs.«131141_j10917806866765_1_alg».proof.Proof.Gen.Kernel.Skeleton
import proofs.«131141_j10917806866765_1_alg».proof.Proof.Gen.Kernel.Launch
import proofs.«131141_j10917806866765_1_alg».proof.Proof.Gen.Kernel.Points
import proofs.«131141_j10917806866765_1_alg».proof.Proof.Gen.Kernel.Frame
import proofs.«131141_j10917806866765_1_alg».proof.Proof.Gen.KernelIdeal
import proofs.«131141_j10917806866765_1_alg».proof.Proof.Gen.KernelIdeal.Skeleton
import proofs.«131141_j10917806866765_1_alg».proof.Proof.Gen.KernelIdeal.Launch
import proofs.«131141_j10917806866765_1_alg».proof.Proof.Gen.KernelIdeal.Points
import proofs.«131141_j10917806866765_1_alg».proof.Proof.Gen.KernelIdeal.Frame
import proofs.«131141_j10917806866765_1_alg».proof.Proof.Gen.ReferenceIdeal
import proofs.«131141_j10917806866765_1_alg».proof.Proof.Gen.Pre_finite_inputs
import proofs.«131141_j10917806866765_1_alg».proof.Proof.Gen.KernelIdeal.Value
import proofs.«131141_j10917806866765_1_alg».proof.Proof.Gen.ReferenceIdeal.Run
import proofs.«131141_j10917806866765_1_alg».proof.Proof.Gen.ReferenceIdeal.Read
import proofs.«131141_j10917806866765_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with every edge's score: the kernel's result array by its 500 tiles, the reference's by its
    last stage, of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v38_eq, h0, h1, h2, h3, h4, h5, h6, h7]
  exact Cert.Bridge.ref_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
